-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S500000x172 : Shape := ⟨2, ![500000, 172]⟩
abbrev S100000x100 : Shape := ⟨2, ![100000, 100]⟩
abbrev S100000 : Shape := ⟨1, ![100000]⟩
abbrev S100 : Shape := ⟨1, ![100]⟩
abbrev S300x100 : Shape := ⟨2, ![300, 100]⟩
abbrev S100x3 : Shape := ⟨2, ![100, 3]⟩
abbrev S3 : Shape := ⟨1, ![3]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S500000x172 : S_.BroadcastsInDim S500000x172 (![] : Fin 0 → Fin S500000x172.rank)
  reducesTo_S500000x172_S_d0_1 : S500000x172.ReducesTo [0, 1] S_
  bcast_S_S100000x100 : S_.BroadcastsInDim S100000x100 (![] : Fin 0 → Fin S100000x100.rank)
  reducesTo_S100000x100_S_d0_1 : S100000x100.ReducesTo [0, 1] S_
  bcast_S_S100000 : S_.BroadcastsInDim S100000 (![] : Fin 0 → Fin S100000.rank)
  reducesTo_S100000_S_d0 : S100000.ReducesTo [0] S_
  bcast_S_S100 : S_.BroadcastsInDim S100 (![] : Fin 0 → Fin S100.rank)
  reducesTo_S100_S_d0 : S100.ReducesTo [0] S_
  bcast_S_S300x100 : S_.BroadcastsInDim S300x100 (![] : Fin 0 → Fin S300x100.rank)
  reducesTo_S300x100_S_d0_1 : S300x100.ReducesTo [0, 1] S_
  bcast_S_S100x3 : S_.BroadcastsInDim S100x3 (![] : Fin 0 → Fin S100x3.rank)
  reducesTo_S100x3_S_d0_1 : S100x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S100 .f32) (main_arg10 : FVec F S100x3 .f32) (main_arg11 : FVec F S3 .f32) (main_v33 : IVec S_ 1) : IVec S_ 1 :=
  let main_v34 : FVec F S100 .f32 := Host.absf main_arg9
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x3 .f32 := Host.absf main_arg10
  let main_cst_14 : FVec F S_ .f32 := constant S_ .f32 0x7F800000#32
  let main_v40 : FVec F S100x3 .f32 := broadcastInDim S100x3 ![] bcast_S_S100x3 main_cst_14
  let main_v41 : IVec S100x3 1 := cmpf .olt main_v39 main_v40
  let main_c_15 : IVec S_ 1 := constantI S_ 1 1#1
  let main_v42 : IVec S_ 1 := (fun x v => Host.reduce IntOp.andi x v reducesTo_S100x3_S_d0_1 h_S_) main_v41 main_c_15
  let main_v43 : IVec S_ 1 := andi main_v38 main_v42
  let main_v44 : FVec F S3 .f32 := Host.absf main_arg11
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg6 : FVec F S100 .f32) (main_arg7 : FVec F S100 .f32) (main_arg8 : FVec F S300x100 .f32) (main_arg9 : FVec F S100 .f32) (main_arg10 : FVec F S100x3 .f32) (main_arg11 : FVec F S3 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S100 .f32 := Host.absf main_arg6
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100 .f32 := Host.absf main_arg7
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S300x100 .f32 := Host.absf main_arg8
  let main_cst_10 : FVec F S_ .f32 := constant S_ .f32 0x7F800000#32
  let main_v30 : FVec F S300x100 .f32 := broadcastInDim S300x100 ![] bcast_S_S300x100 main_cst_10
  let main_v31 : IVec S300x100 1 := cmpf .olt main_v29 main_v30
  let main_c_11 : IVec S_ 1 := constantI S_ 1 1#1
  let main_v32 : IVec S_ 1 := (fun x v => Host.reduce IntOp.andi x v reducesTo_S300x100_S_d0_1 h_S_) main_v31 main_c_11
  let main_v33 : IVec S_ 1 := andi main_v28 main_v32
  fn_part2 (F := F) main_arg9 main_arg10 main_arg11 main_v33

def fn {F : FTy → Type} [FloatOps F] (main_arg0 : IVec S500000 32) (main_arg1 : IVec S500000 32) (main_arg2 : FVec F S500000 .f32) (main_arg3 : FVec F S500000x172 .f32) (main_arg4 : FVec F S100000x100 .f32) (main_arg5 : FVec F S100000 .f32) (main_arg6 : FVec F S100 .f32) (main_arg7 : FVec F S100 .f32) (main_arg8 : FVec F S300x100 .f32) (main_arg9 : FVec F S100 .f32) (main_arg10 : FVec F S100x3 .f32) (main_arg11 : FVec F S3 .f32) : IVec S_ 1 :=
  let main_v0 : FVec F S500000 .f32 := Host.absf main_arg2
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S500000x172 .f32 := Host.absf main_arg3
  let main_cst_0 : FVec F S_ .f32 := constant S_ .f32 0x7F800000#32
  let main_v5 : FVec F S500000x172 .f32 := broadcastInDim S500000x172 ![] bcast_S_S500000x172 main_cst_0
  let main_v6 : IVec S500000x172 1 := cmpf .olt main_v4 main_v5
  let main_c_1 : IVec S_ 1 := constantI S_ 1 1#1
  let main_v7 : IVec S_ 1 := (fun x v => Host.reduce IntOp.andi x v reducesTo_S500000x172_S_d0_1 h_S_) main_v6 main_c_1
  let main_v8 : IVec S_ 1 := andi main_v3 main_v7
  let main_v9 : FVec F S100000x100 .f32 := Host.absf main_arg4
  let main_cst_2 : FVec F S_ .f32 := constant S_ .f32 0x7F800000#32
  let main_v10 : FVec F S100000x100 .f32 := broadcastInDim S100000x100 ![] bcast_S_S100000x100 main_cst_2
  let main_v11 : IVec S100000x100 1 := cmpf .olt main_v9 main_v10
  let main_c_3 : IVec S_ 1 := constantI S_ 1 1#1
  let main_v12 : IVec S_ 1 := (fun x v => Host.reduce IntOp.andi x v reducesTo_S100000x100_S_d0_1 h_S_) main_v11 main_c_3
  let main_v13 : IVec S_ 1 := andi main_v8 main_v12
  let main_v14 : FVec F S100000 .f32 := Host.absf main_arg5
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg6 main_arg7 main_arg8 main_arg9 main_arg10 main_arg11 main_v13 main_v16
-- ==== Kernel.lean ====
abbrev S500000 : Shape := ⟨1, ![500000]⟩
abbrev S500000x172 : Shape := ⟨2, ![500000, 172]⟩
abbrev S100000x100 : Shape := ⟨2, ![100000, 100]⟩
abbrev S100000 : Shape := ⟨1, ![100000]⟩
abbrev S100 : Shape := ⟨1, ![100]⟩
abbrev S300x100 : Shape := ⟨2, ![300, 100]⟩
abbrev S100x3 : Shape := ⟨2, ![100, 3]⟩
abbrev S3 : Shape := ⟨1, ![3]⟩
abbrev S_ : Shape := ⟨0, ![]⟩
abbrev S500000x1 : Shape := ⟨2, ![500000, 1]⟩
abbrev S500000x100 : Shape := ⟨2, ![500000, 100]⟩
abbrev S1x100 : Shape := ⟨2, ![1, 100]⟩
abbrev S100x100 : Shape := ⟨2, ![100, 100]⟩
abbrev S1x3 : Shape := ⟨2, ![1, 3]⟩
abbrev S500000x3 : Shape := ⟨2, ![500000, 3]⟩
abbrev S4000x100 : Shape := ⟨2, ![4000, 100]⟩
abbrev S4000x1 : Shape := ⟨2, ![4000, 1]⟩
abbrev S4000x3 : Shape := ⟨2, ![4000, 3]⟩

abbrev nBuf : Space → Nat
  | .hbm => 55
  | .vmem => 16
  | .smem => 0
  | _ => 0

abbrev bufTy : (tb : Table) → Fin (tcTables nBuf tb) → BufTy
  | .hbm, ⟨0, _⟩ => ⟨S500000, .i32⟩
  | .hbm, ⟨1, _⟩ => ⟨S500000, .i32⟩
  | .hbm, ⟨2, _⟩ => ⟨S500000, .f32⟩
  | .hbm, ⟨3, _⟩ => ⟨S500000x172, .f32⟩
  | .hbm, ⟨4, _⟩ => ⟨S100000x100, .f32⟩
  | .hbm, ⟨5, _⟩ => ⟨S100000, .f32⟩
  | .hbm, ⟨6, _⟩ => ⟨S100, .f32⟩
  | .hbm, ⟨7, _⟩ => ⟨S100, .f32⟩
  | .hbm, ⟨8, _⟩ => ⟨S300x100, .f32⟩
  | .hbm, ⟨9, _⟩ => ⟨S100, .f32⟩
  | .hbm, ⟨10, _⟩ => ⟨S100x3, .f32⟩
  | .hbm, ⟨11, _⟩ => ⟨S3, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000, .f32⟩
  | .hbm, ⟨21, _⟩ => ⟨S500000, .f32⟩
  | .hbm, ⟨22, _⟩ => ⟨S500000x1, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x100, .f32⟩
  | .hbm, ⟨32, _⟩ => ⟨S500000x100, .bf16⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x100, .f32⟩
  | .hbm, ⟨42, _⟩ => ⟨S500000x100, .bf16⟩
  | .hbm, ⟨43, _⟩ => ⟨S1x100, .f32⟩
  | .hbm, ⟨44, _⟩ => ⟨S1x100, .f32⟩
  | .hbm, ⟨45, _⟩ => ⟨S100x100, .f32⟩
  | .hbm, ⟨46, _⟩ => ⟨S100x100, .bf16⟩
  | .hbm, ⟨47, _⟩ => ⟨S100x100, .f32⟩
  | .hbm, ⟨48, _⟩ => ⟨S100x100, .bf16⟩
  | .hbm, ⟨49, _⟩ => ⟨S100x100, .f32⟩
  | .hbm, ⟨50, _⟩ => ⟨S100x100, .bf16⟩
  | .hbm, ⟨51, _⟩ => ⟨S1x100, .f32⟩
  | .hbm, ⟨52, _⟩ => ⟨S100x3, .bf16⟩
  | .hbm, ⟨53, _⟩ => ⟨S1x3, .f32⟩
  | .hbm, ⟨54, _⟩ => ⟨S500000x3, .f32⟩
  | .local _ .vmem, ⟨0, _⟩ => ⟨S4000x100, .bf16⟩
  | .local _ .vmem, ⟨1, _⟩ => ⟨S4000x100, .bf16⟩
  | .local _ .vmem, ⟨2, _⟩ => ⟨S4000x100, .bf16⟩
  | .local _ .vmem, ⟨3, _⟩ => ⟨S4000x100, .bf16⟩
  | .local _ .vmem, ⟨4, _⟩ => ⟨S4000x1, .f32⟩
  | .local _ .vmem, ⟨5, _⟩ => ⟨S4000x1, .f32⟩
  | .local _ .vmem, ⟨6, _⟩ => ⟨S1x100, .f32⟩
  | .local _ .vmem, ⟨7, _⟩ => ⟨S1x100, .f32⟩
  | .local _ .vmem, ⟨8, _⟩ => ⟨S100x100, .bf16⟩
  | .local _ .vmem, ⟨9, _⟩ => ⟨S100x100, .bf16⟩
  | .local _ .vmem, ⟨10, _⟩ => ⟨S100x100, .bf16⟩
  | .local _ .vmem, ⟨11, _⟩ => ⟨S1x100, .f32⟩
  | .local _ .vmem, ⟨12, _⟩ => ⟨S100x3, .bf16⟩
  | .local _ .vmem, ⟨13, _⟩ => ⟨S1x3, .f32⟩
  | .local _ .vmem, ⟨14, _⟩ => ⟨S4000x3, .f32⟩
  | .local _ .vmem, ⟨15, _⟩ => ⟨S4000x3, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x100 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x100 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x100 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x100 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S100x3 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  shapeCasts_S500000_S500000x1 : S500000.ShapeCasts S500000x1
  bitsLt_bf16_f32 : FTy.bits .bf16 < FTy.bits .f32
  shapeCasts_S100_S1x100 : S100.ShapeCasts S1x100
  slices_S300x100_S100x100_0_0 : S300x100.Slices ![0, 0] S100x100
  slices_S300x100_S100x100_100_0 : S300x100.Slices ![100, 0] S100x100
  slices_S300x100_S100x100_200_0 : S300x100.Slices ![200, 0] S100x100
  shapeCasts_S3_S1x3 : S3.ShapeCasts S1x3
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S4000x1_S4000x100 : S4000x1.Broadcasts S4000x100
  broadcasts_S1x100_S4000x100 : S1x100.Broadcasts S4000x100
  inb_S4000x100_S4000x100_0_0 : ∀ a, (![0, 0] : Fin 2 → Nat) a + S4000x100.size a ≤ S4000x100.size a
  h_S4000x100 : 0 < S4000x100.numel
  shapeCasts_S4000x100_S4000x100 : S4000x100.ShapeCasts S4000x100
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S100x3_S100x3_0_0 : ∀ a, (![0, 0] : Fin 2 → Nat) a + S100x3.size a ≤ S100x3.size a
  h_S100x3 : 0 < S100x3.numel
  shapeCasts_S100x3_S100x3 : S100x3.ShapeCasts S100x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  inb_S4000x3_S4000x3_0_0 : ∀ a, (![0, 0] : Fin 2 → Nat) a + S4000x3.size a ≤ S4000x3.size a
  h_S4000x3 : 0 < S4000x3.numel
  gather_S100000_S500000x1_S500000_n_0_n_n_0_1_1_wf : GatherDims.WF S100000 S500000x1 S500000 [] [0] [] [0] [] 1 ![1]
  gather_S100000x100_S500000x1_S500000x100_1_0_n_n_0_1_1100_wf : GatherDims.WF S100000x100 S500000x1 S500000x100 [1] [0] [] [0] [] 1 ![1, 100]
  dot_S4000x100_S100x100_S4000x100_1_0_0_1_n_n_wf : DotDims.WF S4000x100 S100x100 S4000x100 [1] [0] [0] [1] [] []
  dot_S4000x100_S100x3_S4000x3_1_0_0_1_n_n_wf : DotDims.WF S4000x100 S100x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x100.size a ≤ S500000x100.size a
  hwx0_0 : ∀ i : grid0.Coords, EltTy.bits .bf16 = 32 ∨ (Rect.block (s := S500000x100) S4000x100.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x100.size a ≤ S500000x100.size a
  hwx0_1 : ∀ i : grid0.Coords, EltTy.bits .bf16 = 32 ∨ (Rect.block (s := S500000x100) S4000x100.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S500000x1.size a
  hwx0_2 : ∀ i : grid0.Coords, EltTy.bits .f32 = 32 ∨ (Rect.block (s := S500000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x100.size a ≤ S100x100.size a
  hwx0_5 : ∀ i : grid0.Coords, EltTy.bits .bf16 = 32 ∨ (Rect.block (s := S100x100) S100x100.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100x100.size a ≤ S100x100.size a
  hwx0_6 : ∀ i : grid0.Coords, EltTy.bits .bf16 = 32 ∨ (Rect.block (s := S100x100) S100x100.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x100.size a ≤ S100x100.size a
  hwx0_7 : ∀ i : grid0.Coords, EltTy.bits .bf16 = 32 ∨ (Rect.block (s := S100x100) S100x100.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x100.size a ≤ S1x100.size a
  hwx0_8 : ∀ i : grid0.Coords, EltTy.bits .f32 = 32 ∨ (Rect.block (s := S1x100) S1x100.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S100x3.size a ≤ S100x3.size a
  hwx0_9 : ∀ i : grid0.Coords, EltTy.bits .bf16 = 32 ∨ (Rect.block (s := S100x3) S100x3.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3.size a ≤ S1x3.size a
  hwx0_10 : ∀ i : grid0.Coords, EltTy.bits .f32 = 32 ∨ (Rect.block (s := S1x3) S1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x3.size a ≤ S500000x3.size a
  hwx0_11 : ∀ i : grid0.Coords, EltTy.bits .f32 = 32 ∨ (Rect.block (s := S500000x3) S4000x3.size (cc0_transform_11 i) (hinb0_11 i)).WholeWords (EltTy.packing .f32)

variable [Facts₀]

def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x100_S500000x1_S500000x100_1_0_n_n_0_1_1100 : GatherDims S100000x100 S500000x1 S500000x100 where
  offsetDims := [1]
  collapsedSliceDims := [0]
  operandBatchingDims := []
  startIndicesBatchingDims := []
  startIndexMap := [0]
  indexVectorDim := 1
  sliceSizes := ![1, 100]
  wf := gather_S100000x100_S500000x1_S500000x100_1_0_n_n_0_1_1100_wf
def dot_S4000x100_S100x100_S4000x100_1_0_0_1_n_n : DotDims S4000x100 S100x100 S4000x100 where
  lhsContracting := [1]
  rhsContracting := [0]
  lhsNonContracting := [0]
  rhsNonContracting := [1]
  lhsBatch := []
  rhsBatch := []
  wf := dot_S4000x100_S100x100_S4000x100_1_0_0_1_n_n_wf
def dot_S4000x100_S100x3_S4000x3_1_0_0_1_n_n : DotDims S4000x100 S100x3 S4000x3 where
  lhsContracting := [1]
  rhsContracting := [0]
  lhsNonContracting := [0]
  rhsNonContracting := [1]
  lhsBatch := []
  rhsBatch := []
  wf := dot_S4000x100_S100x3_S4000x3_1_0_0_1_n_n_wf

abbrev win0_0 : Pipeline.Window sig grid0 :=
  Pipeline.Window.ofSpec (Memref.whole main_v16) S4000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S100x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S100x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S100x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S100x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v35) S1x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v36) S4000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S500000 : Shape := ⟨1, ![500000]⟩
abbrev S500000x172 : Shape := ⟨2, ![500000, 172]⟩
abbrev S100000x100 : Shape := ⟨2, ![100000, 100]⟩
abbrev S100000 : Shape := ⟨1, ![100000]⟩
abbrev S100 : Shape := ⟨1, ![100]⟩
abbrev S300x100 : Shape := ⟨2, ![300, 100]⟩
abbrev S100x3 : Shape := ⟨2, ![100, 3]⟩
abbrev S3 : Shape := ⟨1, ![3]⟩
abbrev S_ : Shape := ⟨0, ![]⟩
abbrev S500000x1 : Shape := ⟨2, ![500000, 1]⟩
abbrev S1x100 : Shape := ⟨2, ![1, 100]⟩
abbrev S500000x100 : Shape := ⟨2, ![500000, 100]⟩
abbrev S500000x300 : Shape := ⟨2, ![500000, 300]⟩
abbrev S500000x3 : Shape := ⟨2, ![500000, 3]⟩
abbrev S1x3 : Shape := ⟨2, ![1, 3]⟩

abbrev nBuf : Space → Nat
  | .hbm => 61
  | .vmem => 0
  | .smem => 0
  | _ => 0

abbrev bufTy : (tb : Table) → Fin (tcTables nBuf tb) → BufTy
  | .hbm, ⟨0, _⟩ => ⟨S500000, .i32⟩
  | .hbm, ⟨1, _⟩ => ⟨S500000, .i32⟩
  | .hbm, ⟨2, _⟩ => ⟨S500000, .f32⟩
  | .hbm, ⟨3, _⟩ => ⟨S500000x172, .f32⟩
  | .hbm, ⟨4, _⟩ => ⟨S100000x100, .f32⟩
  | .hbm, ⟨5, _⟩ => ⟨S100000, .f32⟩
  | .hbm, ⟨6, _⟩ => ⟨S100, .f32⟩
  | .hbm, ⟨7, _⟩ => ⟨S100, .f32⟩
  | .hbm, ⟨8, _⟩ => ⟨S300x100, .f32⟩
  | .hbm, ⟨9, _⟩ => ⟨S100, .f32⟩
  | .hbm, ⟨10, _⟩ => ⟨S100x3, .f32⟩
  | .hbm, ⟨11, _⟩ => ⟨S3, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000, .f32⟩
  | .hbm, ⟨21, _⟩ => ⟨S500000, .f32⟩
  | .hbm, ⟨22, _⟩ => ⟨S500000x1, .f32⟩
  | .hbm, ⟨23, _⟩ => ⟨S1x100, .f32⟩
  | .hbm, ⟨24, _⟩ => ⟨S500000x100, .f32⟩
  | .hbm, ⟨25, _⟩ => ⟨S500000x100, .f32⟩
  | .hbm, ⟨26, _⟩ => ⟨S500000x100, .f32⟩
  | .hbm, ⟨27, _⟩ => ⟨S1x100, .f32⟩
  | .hbm, ⟨28, _⟩ => ⟨S500000x100, .f32⟩
  | .hbm, ⟨29, _⟩ => ⟨S500000x100, .f32⟩
  | .hbm, ⟨30, _⟩ => ⟨S500000x100, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x100, .f32⟩
  | .hbm, ⟨40, _⟩ => ⟨S_, .i32⟩
  | .hbm, ⟨41, _⟩ => ⟨S500000, .i32⟩
  | .hbm, ⟨42, _⟩ => ⟨S500000, .i1⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000, .i32⟩
  | .hbm, ⟨47, _⟩ => ⟨S500000x1, .i32⟩
  | .hbm, ⟨48, _⟩ => ⟨S500000x100, .f32⟩
  | .hbm, ⟨49, _⟩ => ⟨S500000x300, .f32⟩
  | .hbm, ⟨50, _⟩ => ⟨S500000x100, .f32⟩
  | .hbm, ⟨51, _⟩ => ⟨S1x100, .f32⟩
  | .hbm, ⟨52, _⟩ => ⟨S500000x100, .f32⟩
  | .hbm, ⟨53, _⟩ => ⟨S500000x100, .f32⟩
  | .hbm, ⟨54, _⟩ => ⟨S_, .f32⟩
  | .hbm, ⟨55, _⟩ => ⟨S500000x100, .f32⟩
  | .hbm, ⟨56, _⟩ => ⟨S500000x100, .f32⟩
  | .hbm, ⟨57, _⟩ => ⟨S500000x3, .f32⟩
  | .hbm, ⟨58, _⟩ => ⟨S1x3, .f32⟩
  | .hbm, ⟨59, _⟩ => ⟨S500000x3, .f32⟩
  | .hbm, ⟨60, _⟩ => ⟨S500000x3, .f32⟩
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S100_S1x100_1 : S100.BroadcastsInDim S1x100 (![1] : Fin 1 → Fin S1x100.rank)
  bcast_S500000x1_S500000x100_0_1 : S500000x1.BroadcastsInDim S500000x100 (![0, 1] : Fin 2 → Fin S500000x100.rank)
  bcast_S1x100_S500000x100_0_1 : S1x100.BroadcastsInDim S500000x100 (![0, 1] : Fin 2 → Fin S500000x100.rank)
  concatenates_S500000x100_S500000x100_S500000x100_S500000x300_d1 : Shape.Concatenates [S500000x100, S500000x100, S500000x100] S500000x300 1
  bcast_S_S500000x100 : S_.BroadcastsInDim S500000x100 (![] : Fin 0 → Fin S500000x100.rank)
  bcast_S3_S1x3_1 : S3.BroadcastsInDim S1x3 (![1] : Fin 1 → Fin S1x3.rank)
  bcast_S1x3_S500000x3_0_1 : S1x3.BroadcastsInDim S500000x3 (![0, 1] : Fin 2 → Fin S500000x3.rank)
  gather_S100000_S500000x1_S500000_n_0_n_n_0_1_1_wf : GatherDims.WF S100000 S500000x1 S500000 [] [0] [] [0] [] 1 ![1]
  gather_S100000x100_S500000x1_S500000x100_1_0_n_n_0_1_1100_wf : GatherDims.WF S100000x100 S500000x1 S500000x100 [1] [0] [] [0] [] 1 ![1, 100]
  dot_S500000x300_S300x100_S500000x100_1_0_0_1_n_n_wf : DotDims.WF S500000x300 S300x100 S500000x100 [1] [0] [0] [1] [] []
  dot_S500000x100_S100x3_S500000x3_1_0_0_1_n_n_wf : DotDims.WF S500000x100 S100x3 S500000x3 [1] [0] [0] [1] [] []

variable [Facts₀]

def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x100_S500000x1_S500000x100_1_0_n_n_0_1_1100 : GatherDims S100000x100 S500000x1 S500000x100 where
  offsetDims := [1]
  collapsedSliceDims := [0]
  operandBatchingDims := []
  startIndicesBatchingDims := []
  startIndexMap := [0]
  indexVectorDim := 1
  sliceSizes := ![1, 100]
  wf := gather_S100000x100_S500000x1_S500000x100_1_0_n_n_0_1_1100_wf
def dot_S500000x300_S300x100_S500000x100_1_0_0_1_n_n : DotDims S500000x300 S300x100 S500000x100 where
  lhsContracting := [1]
  rhsContracting := [0]
  lhsNonContracting := [0]
  rhsNonContracting := [1]
  lhsBatch := []
  rhsBatch := []
  wf := dot_S500000x300_S300x100_S500000x100_1_0_0_1_n_n_wf
def dot_S500000x100_S100x3_S500000x3_1_0_0_1_n_n : DotDims S500000x100 S100x3 S500000x3 where
  lhsContracting := [1]
  rhsContracting := [0]
  lhsNonContracting := [0]
  rhsNonContracting := [1]
  lhsBatch := []
  rhsBatch := []
  wf := dot_S500000x100_S100x3_S500000x3_1_0_0_1_n_n_wf

class Facts : Prop extends Facts₀ where

variable [Facts]
-- ==== Proof.DecoderSpec.lean ====
/-
  The decoder's result as one function of its arrays, and the one law that joins the two programs.

  For an edge e the model gathers the two endpoint memory rows A e, B e ∈ ℝ^100 and the time gap D e,
  encodes the gap as c e k = cos (D e · w k + β k), k < 100, and feeds the 300 numbers (A e, B e, c e)
  through a two-layer perceptron:

      h e j = max (Σ_{k<300} z e k · W₁ k j + b₁ j) 0 ,   z e = (A e, B e, c e) ,
      y e o = Σ_{j<100} h e j · W₂ j o + b₂ o .

  One program forms z by joining the three rows and contracts it against W₁ in one product; the other
  never joins them and adds three products against the row bands 0–99, 100–199, 200–299 of W₁. The two
  agree because a sum over 300 indices is the sum of its three consecutive hundreds, which holds in any
  commutative monoid: the extended reals need no finiteness for it.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.Decoder

/-- A sum over 300 consecutive indices is the sum of its first, second and third hundred. -/
theorem sum_three_hundreds {M : Type*} [AddCommMonoid M] (f : Fin 300 → M) :
    ∑ k : Fin 300, f k
      = (∑ k : Fin 100, f ⟨k.val, by omega⟩) + (∑ k : Fin 100, f ⟨100 + k.val, by omega⟩)
        + ∑ k : Fin 100, f ⟨200 + k.val, by omega⟩ := by
  have h1 : ∑ k : Fin 300, f k
      = (∑ k : Fin 200, f ⟨k.val, by omega⟩) + ∑ k : Fin 100, f ⟨200 + k.val, by omega⟩ :=
    Fin.sum_univ_add (a := 200) (b := 100) f
  have h2 : (∑ k : Fin 200, f ⟨k.val, by omega⟩)
      = (∑ k : Fin 100, f ⟨k.val, by omega⟩) + ∑ k : Fin 100, f ⟨100 + k.val, by omega⟩ :=
    Fin.sum_univ_add (a := 100) (b := 100) fun k : Fin (100 + 100) => f ⟨k.val, by omega⟩
  rw [h1, h2]

/-- Row band b (0, 1 or 2) of the first layer's weights: row 100·b + k. -/
abbrev band (b : Nat) (hb : b < 3) (k : Fin 100) : Fin 300 := ⟨100 * b + k.val, by omega⟩

/-- The encoded time gap of edge e at frequency k. -/
def timeEnc (D : (⟨1, ![500000]⟩ : Shape).Idx → EReal) (w β : (⟨1, ![100]⟩ : Shape).Idx → EReal)
    (e : Fin 500000) (k : Fin 100) : EReal :=
  Ideal.cos (D (ix1 e) * w (ix1 k) + β (ix1 k))

/-- Hidden unit j of edge e, the three row bands of W₁ contracted separately. -/
def hidden (A B : (⟨2, ![500000, 100]⟩ : Shape).Idx → EReal) (D : (⟨1, ![500000]⟩ : Shape).Idx → EReal)
    (w β : (⟨1, ![100]⟩ : Shape).Idx → EReal) (W₁ : (⟨2, ![300, 100]⟩ : Shape).Idx → EReal)
    (b₁ : (⟨1, ![100]⟩ : Shape).Idx → EReal) (e : Fin 500000) (j : Fin 100) : EReal :=
  max ((∑ k : Fin 100, A (ix2 e k) * W₁ (ix2 (band 0 (by omega) k) j))
        + (∑ k : Fin 100, B (ix2 e k) * W₁ (ix2 (band 1 (by omega) k) j))
        + (∑ k : Fin 100, timeEnc D w β e k * W₁ (ix2 (band 2 (by omega) k) j))
        + b₁ (ix1 j)) 0

/-- The decoder's output: entry (e, o) of the 500000 × 3 result. -/
def decode (A B : (⟨2, ![500000, 100]⟩ : Shape).Idx → EReal) (D : (⟨1, ![500000]⟩ : Shape).Idx → EReal)
    (w β : (⟨1, ![100]⟩ : Shape).Idx → EReal) (W₁ : (⟨2, ![300, 100]⟩ : Shape).Idx → EReal)
    (b₁ : (⟨1, ![100]⟩ : Shape).Idx → EReal) (W₂ : (⟨2, ![100, 3]⟩ : Shape).Idx → EReal)
    (b₂ : (⟨1, ![3]⟩ : Shape).Idx → EReal) : (⟨2, ![500000, 3]⟩ : Shape).Idx → EReal :=
  fun i => (∑ j : Fin 100, hidden A B D w β W₁ b₁ (i 0) j * W₂ (ix2 j (i 1))) + b₂ (ix1 (i 1))

/-- The joined feature row z e = (A e, B e, c e) at position k < 300. -/
def joined (A B : (⟨2, ![500000, 100]⟩ : Shape).Idx → EReal) (D : (⟨1, ![500000]⟩ : Shape).Idx → EReal)
    (w β : (⟨1, ![100]⟩ : Shape).Idx → EReal) (e : Fin 500000) (k : Fin 300) : EReal :=
  if h : k.val < 100 then A (ix2 e ⟨k.val, h⟩)
  else if h' : k.val < 200 then B (ix2 e ⟨k.val - 100, by omega⟩)
  else timeEnc D w β e ⟨k.val - 200, by omega⟩

/-- One product of the joined row against W₁ is the three band products added. -/
theorem joined_dot (A B : (⟨2, ![500000, 100]⟩ : Shape).Idx → EReal) (D : (⟨1, ![500000]⟩ : Shape).Idx → EReal)
    (w β : (⟨1, ![100]⟩ : Shape).Idx → EReal) (W₁ : (⟨2, ![300, 100]⟩ : Shape).Idx → EReal)
    (e : Fin 500000) (j : Fin 100) :
    ∑ k : Fin 300, joined A B D w β e k * W₁ (ix2 k j)
      = (∑ k : Fin 100, A (ix2 e k) * W₁ (ix2 (band 0 (by omega) k) j))
        + (∑ k : Fin 100, B (ix2 e k) * W₁ (ix2 (band 1 (by omega) k) j))
        + (∑ k : Fin 100, timeEnc D w β e k * W₁ (ix2 (band 2 (by omega) k) j)) := by
  rw [sum_three_hundreds]
  refine congrArg₂ (· + ·) (congrArg₂ (· + ·) ?_ ?_) ?_
  · · refine Finset.sum_congr rfl fun k _ => ?_
      have hk : k.val < 100 := k.isLt
      unfold joined
      rw [dif_pos (show (⟨k.val, by omega⟩ : Fin 300).val < 100 from hk)]
      exact congrArg (A (ix2 e k) * W₁ ·) (congrArg (ix2 · j) (Fin.ext (by show k.val = 100 * 0 + k.val; omega)))
  · · refine Finset.sum_congr rfl fun k _ => ?_
      have hk : k.val < 100 := k.isLt
      unfold joined
      rw [dif_neg (show ¬ (⟨100 + k.val, by omega⟩ : Fin 300).val < 100 from by show ¬ 100 + k.val < 100; omega),
        dif_pos (show (⟨100 + k.val, by omega⟩ : Fin 300).val < 200 from by show 100 + k.val < 200; omega)]
      have e1 : (⟨(⟨100 + k.val, by omega⟩ : Fin 300).val - 100, by show 100 + k.val - 100 < 100; omega⟩ : Fin 100) = k :=
        Fin.ext (by show 100 + k.val - 100 = k.val; omega)
      rw [e1]
  · refine Finset.sum_congr rfl fun k _ => ?_
    have hk : k.val < 100 := k.isLt
    unfold joined
    rw [dif_neg (show ¬ (⟨200 + k.val, by omega⟩ : Fin 300).val < 100 from by show ¬ 200 + k.val < 100; omega),
      dif_neg (show ¬ (⟨200 + k.val, by omega⟩ : Fin 300).val < 200 from by show ¬ 200 + k.val < 200; omega)]
    have e1 : (⟨(⟨200 + k.val, by omega⟩ : Fin 300).val - 200, by show 200 + k.val - 200 < 100; omega⟩ : Fin 100) = k :=
      Fin.ext (by show 200 + k.val - 200 = k.val; omega)
    rw [e1]

end Cert.Decoder

end
-- ==== Proof.KernelBody.lean ====
/-
  The kernel body's arithmetic at one entry of a 4000-edge block.

  A block holds 4000 consecutive edges. For edge p of the block the body reads the two gathered memory rows
  a p, b p ∈ ℝ^100, the time gap d p, and the whole of the small arrays: frequencies w and phases β, the three
  100 × 100 row bands U, V, T of the first layer's weights, its bias b₁, the second layer's weights W₂ and bias b₂.
  It forms  h p j = max (Σ_k a p k · U k j + Σ_k b p k · V k j + Σ_k cos (d p · w k + β k) · T k j + b₁ j) 0
  and stores  y p o = Σ_j h p j · W₂ j o + b₂ o.  Over the extended reals a product into a zero accumulator is the
  plain sum over the contracted index, a change of float format is the identity, and a vector broadcast along a
  unit axis reads the operand at coordinate 0 of that axis: read at (p, j) and (p, o) the body's two value terms
  are exactly these formulas.
-/
import proofs.«150806_j1279900254339_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Hand

open Cert.KernelIdeal Cert.KernelIdeal.Gen

/-! ## The two products' operand indices: row of the left operand, column of the right, the contracted index between -/

theorem lhs_hid_0 (i : S4000x100.Idx) (q : dot_S4000x100_S100x100_S4000x100_1_0_0_1_n_n.contr.Idx) :
    (dot_S4000x100_S100x100_S4000x100_1_0_0_1_n_n.lhsIdx i q 0).val = (i 0).val := by
  unfold DotDims.lhsIdx
  rw [dif_neg (show ¬(0 : Fin S4000x100.rank) ∈ dot_S4000x100_S100x100_S4000x100_1_0_0_1_n_n.lhsBatch by decide), dif_pos (show (0 : Fin S4000x100.rank) ∈ dot_S4000x100_S100x100_S4000x100_1_0_0_1_n_n.lhsNonContracting by decide)]
  rfl
theorem lhs_hid_1 (i : S4000x100.Idx) (q : dot_S4000x100_S100x100_S4000x100_1_0_0_1_n_n.contr.Idx) :
    (dot_S4000x100_S100x100_S4000x100_1_0_0_1_n_n.lhsIdx i q 1).val = (q ⟨0, by decide⟩).val :=
  dot_S4000x100_S100x100_S4000x100_1_0_0_1_n_n.lhsIdx_val_of_single rfl i q
theorem rhs_hid_0 (i : S4000x100.Idx) (q : dot_S4000x100_S100x100_S4000x100_1_0_0_1_n_n.contr.Idx) :
    (dot_S4000x100_S100x100_S4000x100_1_0_0_1_n_n.rhsIdx i q 0).val = (q ⟨0, by decide⟩).val :=
  dot_S4000x100_S100x100_S4000x100_1_0_0_1_n_n.rhsIdx_val_of_single rfl i q
theorem rhs_hid_1 (i : S4000x100.Idx) (q : dot_S4000x100_S100x100_S4000x100_1_0_0_1_n_n.contr.Idx) :
    (dot_S4000x100_S100x100_S4000x100_1_0_0_1_n_n.rhsIdx i q 1).val = (i 1).val := by
  unfold DotDims.rhsIdx
  rw [dif_neg (show ¬(1 : Fin S100x100.rank) ∈ dot_S4000x100_S100x100_S4000x100_1_0_0_1_n_n.rhsBatch by decide), dif_pos (show (1 : Fin S100x100.rank) ∈ dot_S4000x100_S100x100_S4000x100_1_0_0_1_n_n.rhsNonContracting by decide)]
  rfl

/-- A 4000 × 100 by 100 × 100 product into the zero accumulator, at (p, j): Σ_k l p k · r k j. -/
theorem matmul_hid_apply (l : FVec Ideal S4000x100 .bf16) (r : FVec Ideal S100x100 .bf16) (p : Fin 4000) (j : Fin 100) :
    matmul dot_S4000x100_S100x100_S4000x100_1_0_0_1_n_n none l r (constant S4000x100 .f32 0x00000000#32) (ix2 p j)
      = ∑ k : Fin 100, l (ix2 p k) * r (ix2 k j) := by
  simp only [matmul]
  rw [Ideal.matmul_constant_zero_apply, ← Equiv.sum_comp (ValueIdx.contrEquiv1 dot_S4000x100_S100x100_S4000x100_1_0_0_1_n_n 100 rfl rfl).symm]
  refine Finset.sum_congr rfl fun k _ => ?_
  have hk := ValueIdx.contrEquiv1_symm_val dot_S4000x100_S100x100_S4000x100_1_0_0_1_n_n 100 rfl rfl k
  have el : dot_S4000x100_S100x100_S4000x100_1_0_0_1_n_n.lhsIdx (ix2 p j) ((ValueIdx.contrEquiv1 dot_S4000x100_S100x100_S4000x100_1_0_0_1_n_n 100 rfl rfl).symm k) = ix2 p k := funext fun a => Fin.ext (by
    match a with
    | ⟨0, _⟩ => exact lhs_hid_0 _ _
    | ⟨1, _⟩ => exact (lhs_hid_1 _ _).trans hk)
  have er : dot_S4000x100_S100x100_S4000x100_1_0_0_1_n_n.rhsIdx (ix2 p j) ((ValueIdx.contrEquiv1 dot_S4000x100_S100x100_S4000x100_1_0_0_1_n_n 100 rfl rfl).symm k) = ix2 k j := funext fun a => Fin.ext (by
    match a with
    | ⟨0, _⟩ => exact (rhs_hid_0 _ _).trans hk
    | ⟨1, _⟩ => exact rhs_hid_1 _ _)
  rw [el, er]

theorem lhs_out_0 (i : S4000x3.Idx) (q : dot_S4000x100_S100x3_S4000x3_1_0_0_1_n_n.contr.Idx) :
    (dot_S4000x100_S100x3_S4000x3_1_0_0_1_n_n.lhsIdx i q 0).val = (i 0).val := by
  unfold DotDims.lhsIdx
  rw [dif_neg (show ¬(0 : Fin S4000x100.rank) ∈ dot_S4000x100_S100x3_S4000x3_1_0_0_1_n_n.lhsBatch by decide), dif_pos (show (0 : Fin S4000x100.rank) ∈ dot_S4000x100_S100x3_S4000x3_1_0_0_1_n_n.lhsNonContracting by decide)]
  rfl
theorem lhs_out_1 (i : S4000x3.Idx) (q : dot_S4000x100_S100x3_S4000x3_1_0_0_1_n_n.contr.Idx) :
    (dot_S4000x100_S100x3_S4000x3_1_0_0_1_n_n.lhsIdx i q 1).val = (q ⟨0, by decide⟩).val :=
  dot_S4000x100_S100x3_S4000x3_1_0_0_1_n_n.lhsIdx_val_of_single rfl i q
theorem rhs_out_0 (i : S4000x3.Idx) (q : dot_S4000x100_S100x3_S4000x3_1_0_0_1_n_n.contr.Idx) :
    (dot_S4000x100_S100x3_S4000x3_1_0_0_1_n_n.rhsIdx i q 0).val = (q ⟨0, by decide⟩).val :=
  dot_S4000x100_S100x3_S4000x3_1_0_0_1_n_n.rhsIdx_val_of_single rfl i q
theorem rhs_out_1 (i : S4000x3.Idx) (q : dot_S4000x100_S100x3_S4000x3_1_0_0_1_n_n.contr.Idx) :
    (dot_S4000x100_S100x3_S4000x3_1_0_0_1_n_n.rhsIdx i q 1).val = (i 1).val := by
  unfold DotDims.rhsIdx
  rw [dif_neg (show ¬(1 : Fin S100x3.rank) ∈ dot_S4000x100_S100x3_S4000x3_1_0_0_1_n_n.rhsBatch by decide), dif_pos (show (1 : Fin S100x3.rank) ∈ dot_S4000x100_S100x3_S4000x3_1_0_0_1_n_n.rhsNonContracting by decide)]
  rfl

/-- A 4000 × 100 by 100 × 3 product into the zero accumulator, at (p, o): Σ_j l p j · r j o. -/
theorem matmul_out_apply (l : FVec Ideal S4000x100 .bf16) (r : FVec Ideal S100x3 .bf16) (p : Fin 4000) (o : Fin 3) :
    matmul dot_S4000x100_S100x3_S4000x3_1_0_0_1_n_n none l r (constant S4000x3 .f32 0x00000000#32) (ix2 p o)
      = ∑ j : Fin 100, l (ix2 p j) * r (ix2 j o) := by
  simp only [matmul]
  rw [Ideal.matmul_constant_zero_apply, ← Equiv.sum_comp (ValueIdx.contrEquiv1 dot_S4000x100_S100x3_S4000x3_1_0_0_1_n_n 100 rfl rfl).symm]
  refine Finset.sum_congr rfl fun k _ => ?_
  have hk := ValueIdx.contrEquiv1_symm_val dot_S4000x100_S100x3_S4000x3_1_0_0_1_n_n 100 rfl rfl k
  have el : dot_S4000x100_S100x3_S4000x3_1_0_0_1_n_n.lhsIdx (ix2 p o) ((ValueIdx.contrEquiv1 dot_S4000x100_S100x3_S4000x3_1_0_0_1_n_n 100 rfl rfl).symm k) = ix2 p k := funext fun a => Fin.ext (by
    match a with
    | ⟨0, _⟩ => exact lhs_out_0 _ _
    | ⟨1, _⟩ => exact (lhs_out_1 _ _).trans hk)
  have er : dot_S4000x100_S100x3_S4000x3_1_0_0_1_n_n.rhsIdx (ix2 p o) ((ValueIdx.contrEquiv1 dot_S4000x100_S100x3_S4000x3_1_0_0_1_n_n 100 rfl rfl).symm k) = ix2 k o := funext fun a => Fin.ext (by
    match a with
    | ⟨0, _⟩ => exact (rhs_out_0 _ _).trans hk
    | ⟨1, _⟩ => exact rhs_out_1 _ _)
  rw [el, er]

/-! ## Broadcasts along a unit axis, read at (p, q) -/

/-- A column of 4000 spread over 100 lanes: entry (p, q) is the column's entry p. -/
theorem spread_col {α : Type} (v : S4000x1.Idx → α) (p : Fin 4000) (q : Fin 100) :
    broadcastTo S4000x100 v broadcasts_S4000x1_S4000x100 (ix2 p q) = v (ix2 p 0) :=
  broadcastTo_apply v broadcasts_S4000x1_S4000x100 (ix2 p q) (ix2 p 0) fun a => by
    match a with
    | ⟨0, _⟩ => show p.val = if (4000 : Nat) = 1 then 0 else p.val; rw [if_neg (by decide)]
    | ⟨1, _⟩ => show 0 = if (1 : Nat) = 1 then 0 else q.val; rw [if_pos rfl]

/-- A row of 100 spread over 4000 sublanes: entry (p, q) is the row's entry q. -/
theorem spread_row {α : Type} (v : S1x100.Idx → α) (p : Fin 4000) (q : Fin 100) :
    broadcastTo S4000x100 v broadcasts_S1x100_S4000x100 (ix2 p q) = v (ix2 0 q) :=
  broadcastTo_apply v broadcasts_S1x100_S4000x100 (ix2 p q) (ix2 0 q) fun a => by
    match a with
    | ⟨0, _⟩ => show 0 = if (1 : Nat) = 1 then 0 else p.val; rw [if_pos rfl]
    | ⟨1, _⟩ => show q.val = if (100 : Nat) = 1 then 0 else q.val; rw [if_neg (by decide)]

/-- A row of 3 spread over 4000 sublanes: entry (p, o) is the row's entry o. -/
theorem spread_row3 {α : Type} (v : S1x3.Idx → α) (p : Fin 4000) (o : Fin 3) :
    broadcastTo S4000x3 v broadcasts_S1x3_S4000x3 (ix2 p o) = v (ix2 0 o) :=
  broadcastTo_apply v broadcasts_S1x3_S4000x3 (ix2 p o) (ix2 0 o) fun a => by
    match a with
    | ⟨0, _⟩ => show 0 = if (1 : Nat) = 1 then 0 else p.val; rw [if_pos rfl]
    | ⟨1, _⟩ => show o.val = if (3 : Nat) = 1 then 0 else o.val; rw [if_neg (by decide)]

/-! ## The body's two value terms at an entry -/

/-- The hidden layer of a block at edge p and unit j. -/
theorem hidden_at (d : Vec Ideal S4000x1 .f32) (w β : Vec Ideal S1x100 .f32) (a b : Vec Ideal S4000x100 .bf16)
    (U V T : Vec Ideal S100x100 .bf16) (b₁ : Vec Ideal S1x100 .f32) (p : Fin 4000) (j : Fin 100) :
    k0_pay2 (F := Ideal) d w β a b U V T b₁ (ix2 p j)
      = max ((∑ k : Fin 100, a (ix2 p k) * U (ix2 k j)) + (∑ k : Fin 100, b (ix2 p k) * V (ix2 k j))
          + (∑ k : Fin 100, Ideal.cos (d (ix2 p 0) * w (ix2 0 k) + β (ix2 0 k)) * T (ix2 k j)) + b₁ (ix2 0 j)) 0 := by
  unfold k0_pay2
  simp only [shapeCast_self]
  show max (matmul (F := Ideal) dot_S4000x100_S100x100_S4000x100_1_0_0_1_n_n none a U (constant S4000x100 .f32 0x00000000#32) (ix2 p j)
      + matmul (F := Ideal) dot_S4000x100_S100x100_S4000x100_1_0_0_1_n_n none b V (constant S4000x100 .f32 0x00000000#32) (ix2 p j)
      + matmul (F := Ideal) (φ₁ := .bf16) dot_S4000x100_S100x100_S4000x100_1_0_0_1_n_n none
          (fun i => Ideal.cos (broadcastTo S4000x100 d broadcasts_S4000x1_S4000x100 i * broadcastTo S4000x100 w broadcasts_S1x100_S4000x100 i
            + broadcastTo S4000x100 β broadcasts_S1x100_S4000x100 i)) T (constant S4000x100 .f32 0x00000000#32) (ix2 p j)
      + broadcastTo S4000x100 b₁ broadcasts_S1x100_S4000x100 (ix2 p j)) (Ideal.ofBits .f32 0x00000000#32) = _
  rw [matmul_hid_apply, matmul_hid_apply, matmul_hid_apply, spread_row, Ideal.ofBits_zero_f32]
  simp only [spread_col, spread_row]

/-- The output of a block at edge p and class o, over the hidden layer h. -/
theorem output_at (h : FVec Ideal S4000x100 .bf16) (W₂ : Vec Ideal S100x3 .bf16) (b₂ : Vec Ideal S1x3 .f32) (p : Fin 4000) (o : Fin 3) :
    k0_pay1 (F := Ideal) h W₂ b₂ (ix2 p o) = (∑ j : Fin 100, h (ix2 p j) * W₂ (ix2 j o)) + b₂ (ix2 0 o) := by
  unfold k0_pay1
  simp only [shapeCast_self]
  show matmul (F := Ideal) dot_S4000x100_S100x3_S4000x3_1_0_0_1_n_n none h W₂ (constant S4000x3 .f32 0x00000000#32) (ix2 p o)
      + broadcastTo S4000x3 b₂ broadcasts_S1x3_S4000x3 (ix2 p o) = _
  rw [matmul_out_apply, spread_row3]

end Cert.KernelIdeal.Hand

end
-- ==== Proof.KernelHost.lean ====
/-
  What the kernel's windows hold when the region is entered, entry by entry.

  Before the region the program prepares eleven arrays from its arguments. Three depend on the index vectors:
  the memory rows of each edge's source and of its destination (a gather of rows of the 100000 × 100 memory, a negative
  index counted from the table's end), and the time gap t − last_update[src] laid out as a column. The other eight
  only re-lay an argument: the frequencies, the phases and the two biases as one-row matrices, the three row bands
  0–99, 100–199, 200–299 of the first layer's weights, and the second layer's weights. A change of float format is the
  identity on the extended reals, so each window's entry is an entry of a gathered array or of an argument.
-/
import proofs.«150806_j1279900254339_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx Idealize.SL.Sem Idealize.ShloMosaic.StableHlo

namespace Cert.KernelIdeal.Hand

open Cert.KernelIdeal Cert.KernelIdeal.Gen

variable (m : (ℓ : Loc nD τ sig) → Buf (Elt Ideal) ℓ)

/-- An index vector as a column of row numbers into a 100000-row table, a negative index counted from the end. -/
def startRows (x : (⟨S500000, .i32⟩ : BufTy).Contents (Elt Ideal)) : (⟨S500000x1, .i32⟩ : BufTy).Contents (Elt Ideal) :=
  broadcastInDim S500000x1 ![0] bcast_S500000_S500000x1_0
    (select (cmpi .slt x (broadcastInDim S500000 ![] bcast_S_S500000 (constantI S_ 32 0#32)))
      (addi x (broadcastInDim S500000 ![] bcast_S_S500000 (constantI S_ 32 100000#32))) x)

/-- The memory rows the index vector x names, one row per edge. -/
def rowsAt (x : (⟨S500000, .i32⟩ : BufTy).Contents (Elt Ideal)) (M : (⟨S100000x100, .f32⟩ : BufTy).Contents (Elt Ideal)) :
    S500000x100.Idx → EReal :=
  Host.gather gather_S100000x100_S500000x1_S500000x100_1_0_n_n_0_1_1100 M (startRows x)

/-- The time gap of each edge: its time minus the last update of its source node. -/
def gapOf (x : (⟨S500000, .i32⟩ : BufTy).Contents (Elt Ideal)) (t : (⟨S500000, .f32⟩ : BufTy).Contents (Elt Ideal))
    (u : (⟨S100000, .f32⟩ : BufTy).Contents (Elt Ideal)) : S500000.Idx → EReal :=
  subf (F := Ideal) (φ := .f32) t (Host.gather gather_S100000_S500000x1_S500000_n_0_n_n_0_1_1 u (startRows x))

/-! ## The three arrays that depend on the index vectors -/

set_option maxHeartbeats 1000000 in
theorem V_src (c : Dev nD) : (V m c main_v16 : S500000x100.Idx → EReal)
    = rowsAt (m ((c : Thread nD τ).loc main_arg0)) (m ((c : Thread nD τ).loc main_arg4)) := by
  show StableHlo.after (hostOps0 (F := Ideal)) (fun b => m (c, b)) (Proc.devRef .tc main_v16) = _
  after_results_simp <;> rfl

set_option maxHeartbeats 1000000 in
theorem V_dst (c : Dev nD) : (V m c main_v24 : S500000x100.Idx → EReal)
    = rowsAt (m ((c : Thread nD τ).loc main_arg1)) (m ((c : Thread nD τ).loc main_arg4)) := by
  show StableHlo.after (hostOps0 (F := Ideal)) (fun b => m (c, b)) (Proc.devRef .tc main_v24) = _
  after_results_simp <;> rfl

set_option maxHeartbeats 1000000 in
theorem V_gap (c : Dev nD) : (V m c main_v8 : S500000x1.Idx → EReal)
    = shapeCast S500000x1 (gapOf (m ((c : Thread nD τ).loc main_arg0)) (m ((c : Thread nD τ).loc main_arg2)) (m ((c : Thread nD τ).loc main_arg5))) shapeCasts_S500000_S500000x1 := by
  show StableHlo.after (hostOps0 (F := Ideal)) (fun b => m (c, b)) (Proc.devRef .tc main_v8) = _
  after_results_simp <;> rfl

/-- The gap column's entry for edge e. -/
theorem V_gap_at (c : Dev nD) (e : Fin 500000) :
    (V m c main_v8 : S500000x1.Idx → EReal) (ix2 e 0)
      = gapOf (m ((c : Thread nD τ).loc main_arg0)) (m ((c : Thread nD τ).loc main_arg2)) (m ((c : Thread nD τ).loc main_arg5)) (ix1 e) := by
  rw [V_gap]
  exact shapeCast_apply _ shapeCasts_S500000_S500000x1 (ix2 e 0) (ix1 e) (by
    rw [Shape.rowMajor_val_two, Shape.rowMajor_val_one]
    show e.val = e.val * 1 + 0
    omega)

/-! ## The eight arrays that re-lay an argument -/

set_option maxHeartbeats 1000000 in
theorem V_freq (c : Dev nD) : (V m c main_v25 : S1x100.Idx → EReal)
    = shapeCast S1x100 (m ((c : Thread nD τ).loc main_arg6) : S100.Idx → EReal) shapeCasts_S100_S1x100 := by
  show StableHlo.after (hostOps0 (F := Ideal)) (fun b => m (c, b)) (Proc.devRef .tc main_v25) = _
  after_results_simp <;> rfl

set_option maxHeartbeats 1000000 in
theorem V_phase (c : Dev nD) : (V m c main_v26 : S1x100.Idx → EReal)
    = shapeCast S1x100 (m ((c : Thread nD τ).loc main_arg7) : S100.Idx → EReal) shapeCasts_S100_S1x100 := by
  show StableHlo.after (hostOps0 (F := Ideal)) (fun b => m (c, b)) (Proc.devRef .tc main_v26) = _
  after_results_simp <;> rfl

set_option maxHeartbeats 1000000 in
theorem V_band0 (c : Dev nD) : (V m c main_v28 : S100x100.Idx → EReal)
    = extractStridedSlice S100x100 ![0, 0] (m ((c : Thread nD τ).loc main_arg8) : S300x100.Idx → EReal) slices_S300x100_S100x100_0_0 := by
  show StableHlo.after (hostOps0 (F := Ideal)) (fun b => m (c, b)) (Proc.devRef .tc main_v28) = _
  after_results_simp <;> rfl

set_option maxHeartbeats 1000000 in
theorem V_band1 (c : Dev nD) : (V m c main_v30 : S100x100.Idx → EReal)
    = extractStridedSlice S100x100 ![100, 0] (m ((c : Thread nD τ).loc main_arg8) : S300x100.Idx → EReal) slices_S300x100_S100x100_100_0 := by
  show StableHlo.after (hostOps0 (F := Ideal)) (fun b => m (c, b)) (Proc.devRef .tc main_v30) = _
  after_results_simp <;> rfl

set_option maxHeartbeats 1000000 in
theorem V_band2 (c : Dev nD) : (V m c main_v32 : S100x100.Idx → EReal)
    = extractStridedSlice S100x100 ![200, 0] (m ((c : Thread nD τ).loc main_arg8) : S300x100.Idx → EReal) slices_S300x100_S100x100_200_0 := by
  show StableHlo.after (hostOps0 (F := Ideal)) (fun b => m (c, b)) (Proc.devRef .tc main_v32) = _
  after_results_simp <;> rfl

set_option maxHeartbeats 1000000 in
theorem V_bias1 (c : Dev nD) : (V m c main_v33 : S1x100.Idx → EReal)
    = shapeCast S1x100 (m ((c : Thread nD τ).loc main_arg9) : S100.Idx → EReal) shapeCasts_S100_S1x100 := by
  show StableHlo.after (hostOps0 (F := Ideal)) (fun b => m (c, b)) (Proc.devRef .tc main_v33) = _
  after_results_simp <;> rfl

set_option maxHeartbeats 1000000 in
theorem V_w2 (c : Dev nD) : (V m c main_v34 : S100x3.Idx → EReal) = (m ((c : Thread nD τ).loc main_arg10) : S100x3.Idx → EReal) := by
  show StableHlo.after (hostOps0 (F := Ideal)) (fun b => m (c, b)) (Proc.devRef .tc main_v34) = _
  after_results_simp <;> rfl

set_option maxHeartbeats 1000000 in
theorem V_bias2 (c : Dev nD) : (V m c main_v35 : S1x3.Idx → EReal)
    = shapeCast S1x3 (m ((c : Thread nD τ).loc main_arg11) : S3.Idx → EReal) shapeCasts_S3_S1x3 := by
  show StableHlo.after (hostOps0 (F := Ideal)) (fun b => m (c, b)) (Proc.devRef .tc main_v35) = _
  after_results_simp <;> rfl

/-- Row band b of the first layer's weights at (k, j) is the weights at (100·b + k, j). -/
theorem V_band0_at (c : Dev nD) (k j : Fin 100) :
    (V m c main_v28 : S100x100.Idx → EReal) (ix2 k j) = (m ((c : Thread nD τ).loc main_arg8) : S300x100.Idx → EReal) (ix2 (⟨100 * 0 + k.val, by omega⟩ : Fin 300) j) := by
  rw [V_band0]
  exact slice2_axis0_apply 0 _ slices_S300x100_S100x100_0_0 k j _ (by show 100 * 0 + k.val = 0 + k.val; omega)
theorem V_band1_at (c : Dev nD) (k j : Fin 100) :
    (V m c main_v30 : S100x100.Idx → EReal) (ix2 k j) = (m ((c : Thread nD τ).loc main_arg8) : S300x100.Idx → EReal) (ix2 (⟨100 * 1 + k.val, by omega⟩ : Fin 300) j) := by
  rw [V_band1]
  exact slice2_axis0_apply 100 _ slices_S300x100_S100x100_100_0 k j _ (by show 100 * 1 + k.val = 100 + k.val; omega)
theorem V_band2_at (c : Dev nD) (k j : Fin 100) :
    (V m c main_v32 : S100x100.Idx → EReal) (ix2 k j) = (m ((c : Thread nD τ).loc main_arg8) : S300x100.Idx → EReal) (ix2 (⟨100 * 2 + k.val, by omega⟩ : Fin 300) j) := by
  rw [V_band2]
  exact slice2_axis0_apply 200 _ slices_S300x100_S100x100_200_0 k j _ (by show 100 * 2 + k.val = 200 + k.val; omega)

/-- A vector laid out as one row reads, at (0, k), the vector at k. -/
theorem V_freq_at (c : Dev nD) (k : Fin 100) :
    (V m c main_v25 : S1x100.Idx → EReal) (ix2 0 k) = (m ((c : Thread nD τ).loc main_arg6) : S100.Idx → EReal) (ix1 k) := by
  rw [V_freq]; exact shapeCast_a_1a_apply _ shapeCasts_S100_S1x100 0 k
theorem V_phase_at (c : Dev nD) (k : Fin 100) :
    (V m c main_v26 : S1x100.Idx → EReal) (ix2 0 k) = (m ((c : Thread nD τ).loc main_arg7) : S100.Idx → EReal) (ix1 k) := by
  rw [V_phase]; exact shapeCast_a_1a_apply _ shapeCasts_S100_S1x100 0 k
theorem V_bias1_at (c : Dev nD) (k : Fin 100) :
    (V m c main_v33 : S1x100.Idx → EReal) (ix2 0 k) = (m ((c : Thread nD τ).loc main_arg9) : S100.Idx → EReal) (ix1 k) := by
  rw [V_bias1]; exact shapeCast_a_1a_apply _ shapeCasts_S100_S1x100 0 k
theorem V_bias2_at (c : Dev nD) (o : Fin 3) :
    (V m c main_v35 : S1x3.Idx → EReal) (ix2 0 o) = (m ((c : Thread nD τ).loc main_arg11) : S3.Idx → EReal) (ix1 o) := by
  rw [V_bias2]; exact shapeCast_a_1a_apply _ shapeCasts_S3_S1x3 0 o

end Cert.KernelIdeal.Hand

end
-- ==== Proof.KernelValue.lean ====
/-
  The kernel's result array is the decoder's function of its arguments.

  The grid has 125 points; point t handles the 4000 consecutive edges 4000·t … 4000·t + 3999. Its blocks of the two
  gathered row arrays and of the time-gap column are rows 4000·t + p of those arrays, the small arrays are read
  whole at every point, and it writes rows 4000·t + p of the 500000 × 3 result. Entry (p, o) of what it writes is the
  body's value at the blocks, which the block reads turn into the decoder's entry (4000·t + p, o). Every row of the
  result lies in exactly the block of point ⌊row / 4000⌋, so the 125 blocks cover the array and it ends holding the
  decoder's function everywhere.
-/
import proofs.«150806_j1279900254339_1_alg».proof.Proof.Gen.KernelIdeal.Value
import proofs.«150806_j1279900254339_1_alg».proof.Proof.DecoderSpec
import proofs.«150806_j1279900254339_1_alg».proof.Proof.KernelBody
import proofs.«150806_j1279900254339_1_alg».proof.Proof.KernelHost

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.KernelIdeal.Value Cert.Decoder

variable (m : (ℓ : Loc nD τ sig) → Buf (Elt Ideal) ℓ) (ρ : Dev nD → PrngReg)

theorem hz : (![0, 0] : Fin 2 → Nat) = fun _ => 0 := funext fun a => by fin_cases a <;> rfl

/-- The decoder's function of core c's arguments. -/
abbrev result (c : Dev nD) : S500000x3.Idx → EReal :=
  decode (rowsAt (m ((c : Thread nD τ).loc main_arg0)) (m ((c : Thread nD τ).loc main_arg4)))
    (rowsAt (m ((c : Thread nD τ).loc main_arg1)) (m ((c : Thread nD τ).loc main_arg4)))
    (gapOf (m ((c : Thread nD τ).loc main_arg0)) (m ((c : Thread nD τ).loc main_arg2)) (m ((c : Thread nD τ).loc main_arg5)))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-! ## Where each window's block sits at point t -/

/-- The four edge-indexed windows sit at row block t, column block 0; the eight small windows at block (0, 0). -/
theorem where_blocks : ∀ t : Fin cfg0.N,
    (win0_11.index t (0 : Fin 2) = t.val ∧ win0_11.index t (1 : Fin 2) = 0)
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Point t's edge p is edge 4000·t + p. -/
abbrev edgeOf (t : Fin cfg0.N) (p : Fin 4000) : Fin 500000 :=
  ⟨4000 * t.val + p.val, by
    have h : t.val < 125 := Nat.lt_of_lt_of_eq t.isLt (show cfg0.N = 125 from N_0)
    have := p.isLt; omega⟩

/-! ## Each window's block read as entries of the gathered arrays and of the arguments -/

theorem src_blk (c : Dev nD) (t : Fin cfg0.N) (p : Fin 4000) (k : Fin 100) :
    (iblk m c 0 t : Vec Ideal S4000x100 .bf16) (ix2 p k)
      = rowsAt (m ((c : Thread nD τ).loc main_arg0)) (m ((c : Thread nD τ).loc main_arg4)) (ix2 (edgeOf t p) k) := by
  obtain ⟨-, ⟨h0, h1⟩, -⟩ := where_blocks t
  unfold iblk
  rw [View.read_apply]
  show V m c main_v16 _ = _
  rw [V_src]
  congr 1
  funext a
  apply Fin.ext
  match a with
  | ⟨0, _⟩ => show win0_0.index t 0 * 4000 + 1 * p.val = 4000 * t.val + p.val; rw [h0]; omega
  | ⟨1, _⟩ => show win0_0.index t 1 * 100 + 1 * k.val = k.val; rw [h1]; omega

theorem dst_blk (c : Dev nD) (t : Fin cfg0.N) (p : Fin 4000) (k : Fin 100) :
    (iblk m c 1 t : Vec Ideal S4000x100 .bf16) (ix2 p k)
      = rowsAt (m ((c : Thread nD τ).loc main_arg1)) (m ((c : Thread nD τ).loc main_arg4)) (ix2 (edgeOf t p) k) := by
  obtain ⟨-, -, ⟨h0, h1⟩, -⟩ := where_blocks t
  unfold iblk
  rw [View.read_apply]
  show V m c main_v24 _ = _
  rw [V_dst]
  congr 1
  funext a
  apply Fin.ext
  match a with
  | ⟨0, _⟩ => show win0_1.index t 0 * 4000 + 1 * p.val = 4000 * t.val + p.val; rw [h0]; omega
  | ⟨1, _⟩ => show win0_1.index t 1 * 100 + 1 * k.val = k.val; rw [h1]; omega

theorem gap_blk (c : Dev nD) (t : Fin cfg0.N) (p : Fin 4000) :
    (iblk m c 2 t : Vec Ideal S4000x1 .f32) (ix2 p 0)
      = gapOf (m ((c : Thread nD τ).loc main_arg0)) (m ((c : Thread nD τ).loc main_arg2)) (m ((c : Thread nD τ).loc main_arg5)) (ix1 (edgeOf t p)) := by
  obtain ⟨-, -, -, ⟨h0, h1⟩, -⟩ := where_blocks t
  unfold iblk
  rw [View.read_apply]
  show V m c main_v8 _ = _
  refine Eq.trans ?_ (V_gap_at m c (edgeOf t p))
  congr 1
  funext a
  apply Fin.ext
  match a with
  | ⟨0, _⟩ => show win0_2.index t 0 * 4000 + 1 * p.val = 4000 * t.val + p.val; rw [h0]; omega
  | ⟨1, _⟩ => show win0_2.index t 1 * 1 + 1 * 0 = 0; rw [h1]

theorem freq_blk (c : Dev nD) (t : Fin cfg0.N) (k : Fin 100) :
    (iblk m c 3 t : Vec Ideal S1x100 .f32) (ix2 0 k) = (m ((c : Thread nD τ).loc main_arg6) : S100.Idx → EReal) (ix1 k) := by
  obtain ⟨-, -, -, -, ⟨h0, h1⟩, -⟩ := where_blocks t
  unfold iblk
  rw [View.read_apply]
  show V m c main_v25 _ = _
  refine Eq.trans ?_ (V_freq_at m c k)
  congr 1
  funext a
  apply Fin.ext
  match a with
  | ⟨0, _⟩ => show win0_3.index t 0 * 1 + 1 * 0 = 0; rw [h0]
  | ⟨1, _⟩ => show win0_3.index t 1 * 100 + 1 * k.val = k.val; rw [h1]; omega

theorem phase_blk (c : Dev nD) (t : Fin cfg0.N) (k : Fin 100) :
    (iblk m c 4 t : Vec Ideal S1x100 .f32) (ix2 0 k) = (m ((c : Thread nD τ).loc main_arg7) : S100.Idx → EReal) (ix1 k) := by
  obtain ⟨-, -, -, -, -, ⟨h0, h1⟩, -⟩ := where_blocks t
  unfold iblk
  rw [View.read_apply]
  show V m c main_v26 _ = _
  refine Eq.trans ?_ (V_phase_at m c k)
  congr 1
  funext a
  apply Fin.ext
  match a with
  | ⟨0, _⟩ => show win0_4.index t 0 * 1 + 1 * 0 = 0; rw [h0]
  | ⟨1, _⟩ => show win0_4.index t 1 * 100 + 1 * k.val = k.val; rw [h1]; omega

theorem band0_blk (c : Dev nD) (t : Fin cfg0.N) (k j : Fin 100) :
    (iblk m c 5 t : Vec Ideal S100x100 .bf16) (ix2 k j)
      = (m ((c : Thread nD τ).loc main_arg8) : S300x100.Idx → EReal) (ix2 (band 0 (by omega) k) j) := by
  obtain ⟨-, -, -, -, -, -, ⟨h0, h1⟩, -⟩ := where_blocks t
  unfold iblk
  rw [View.read_apply]
  show V m c main_v28 _ = _
  refine Eq.trans ?_ (V_band0_at m c k j)
  congr 1
  funext a
  apply Fin.ext
  match a with
  | ⟨0, _⟩ => show win0_5.index t 0 * 100 + 1 * k.val = k.val; rw [h0]; omega
  | ⟨1, _⟩ => show win0_5.index t 1 * 100 + 1 * j.val = j.val; rw [h1]; omega

theorem band1_blk (c : Dev nD) (t : Fin cfg0.N) (k j : Fin 100) :
    (iblk m c 6 t : Vec Ideal S100x100 .bf16) (ix2 k j)
      = (m ((c : Thread nD τ).loc main_arg8) : S300x100.Idx → EReal) (ix2 (band 1 (by omega) k) j) := by
  obtain ⟨-, -, -, -, -, -, -, ⟨h0, h1⟩, -⟩ := where_blocks t
  unfold iblk
  rw [View.read_apply]
  show V m c main_v30 _ = _
  refine Eq.trans ?_ (V_band1_at m c k j)
  congr 1
  funext a
  apply Fin.ext
  match a with
  | ⟨0, _⟩ => show win0_6.index t 0 * 100 + 1 * k.val = k.val; rw [h0]; omega
  | ⟨1, _⟩ => show win0_6.index t 1 * 100 + 1 * j.val = j.val; rw [h1]; omega

theorem band2_blk (c : Dev nD) (t : Fin cfg0.N) (k j : Fin 100) :
    (iblk m c 7 t : Vec Ideal S100x100 .bf16) (ix2 k j)
      = (m ((c : Thread nD τ).loc main_arg8) : S300x100.Idx → EReal) (ix2 (band 2 (by omega) k) j) := by
  obtain ⟨-, -, -, -, -, -, -, -, ⟨h0, h1⟩, -⟩ := where_blocks t
  unfold iblk
  rw [View.read_apply]
  show V m c main_v32 _ = _
  refine Eq.trans ?_ (V_band2_at m c k j)
  congr 1
  funext a
  apply Fin.ext
  match a with
  | ⟨0, _⟩ => show win0_7.index t 0 * 100 + 1 * k.val = k.val; rw [h0]; omega
  | ⟨1, _⟩ => show win0_7.index t 1 * 100 + 1 * j.val = j.val; rw [h1]; omega

theorem bias1_blk (c : Dev nD) (t : Fin cfg0.N) (j : Fin 100) :
    (iblk m c 8 t : Vec Ideal S1x100 .f32) (ix2 0 j) = (m ((c : Thread nD τ).loc main_arg9) : S100.Idx → EReal) (ix1 j) := by
  obtain ⟨-, -, -, -, -, -, -, -, -, ⟨h0, h1⟩, -⟩ := where_blocks t
  unfold iblk
  rw [View.read_apply]
  show V m c main_v33 _ = _
  refine Eq.trans ?_ (V_bias1_at m c j)
  congr 1
  funext a
  apply Fin.ext
  match a with
  | ⟨0, _⟩ => show win0_8.index t 0 * 1 + 1 * 0 = 0; rw [h0]
  | ⟨1, _⟩ => show win0_8.index t 1 * 100 + 1 * j.val = j.val; rw [h1]; omega

theorem w2_blk (c : Dev nD) (t : Fin cfg0.N) (j : Fin 100) (o : Fin 3) :
    (iblk m c 9 t : Vec Ideal S100x3 .bf16) (ix2 j o) = (m ((c : Thread nD τ).loc main_arg10) : S100x3.Idx → EReal) (ix2 j o) := by
  obtain ⟨-, -, -, -, -, -, -, -, -, -, ⟨h0, h1⟩, -⟩ := where_blocks t
  unfold iblk
  rw [View.read_apply]
  show V m c main_v34 _ = _
  rw [V_w2]
  congr 1
  funext a
  apply Fin.ext
  match a with
  | ⟨0, _⟩ => show win0_9.index t 0 * 100 + 1 * j.val = j.val; rw [h0]; omega
  | ⟨1, _⟩ => show win0_9.index t 1 * 3 + 1 * o.val = o.val; rw [h1]; omega

theorem bias2_blk (c : Dev nD) (t : Fin cfg0.N) (o : Fin 3) :
    (iblk m c 10 t : Vec Ideal S1x3 .f32) (ix2 0 o) = (m ((c : Thread nD τ).loc main_arg11) : S3.Idx → EReal) (ix1 o) := by
  obtain ⟨-, -, -, -, -, -, -, -, -, -, -, h0, h1⟩ := where_blocks t
  unfold iblk
  rw [View.read_apply]
  show V m c main_v35 _ = _
  refine Eq.trans ?_ (V_bias2_at m c o)
  congr 1
  funext a
  apply Fin.ext
  match a with
  | ⟨0, _⟩ => show win0_10.index t 0 * 1 + 1 * 0 = 0; rw [h0]
  | ⟨1, _⟩ => show win0_10.index t 1 * 3 + 1 * o.val = o.val; rw [h1]; omega

/-! ## What point t writes back -/

/-- Entry (p, o) of the body's value at point t's blocks is the decoder's entry (4000·t + p, o). -/
theorem point_value (c : Dev nD) (t : Fin cfg0.N) (p : Fin 4000) (o : Fin 3) :
    k0_pay1 (F := Ideal) (k0_pay2 (iblk m c 2 t) (iblk m c 3 t) (iblk m c 4 t) (iblk m c 0 t) (iblk m c 1 t) (iblk m c 5 t)
        (iblk m c 6 t) (iblk m c 7 t) (iblk m c 8 t)) (iblk m c 9 t) (iblk m c 10 t) (ix2 p o)
      = result m c (ix2 (edgeOf t p) o) := by
  refine (output_at _ _ _ p o).trans ?_
  show _ = (∑ j : Fin 100, Cert.Decoder.hidden _ _ _ _ _ _ _ (edgeOf t p) j * _) + _
  refine congrArg₂ (· + ·) (Finset.sum_congr rfl fun j _ => congrArg₂ (· * ·) ?_ (w2_blk m c t j o)) (bias2_blk m c t o)
  refine (hidden_at _ _ _ _ _ _ _ _ _ p j).trans ?_
  unfold Cert.Decoder.hidden Cert.Decoder.timeEnc
  simp only [src_blk, dst_blk, gap_blk, freq_blk, phase_blk, band0_blk, band1_blk, band2_blk, bias1_blk]

/-- Point t writes back block t of the decoder's function. -/
theorem flushed_eq (c : Dev nD) (t : Fin cfg0.N) :
    (dats m 0 c).flushed 11 t = ((cfg0.win 11).blk t).view.read (Elt Ideal) (result m c) := by
  obtain ⟨⟨h0, h1⟩, -⟩ := where_blocks t
  rw [flushed11]
  unfold out0_11
  rw [View.canon_unit_zero hz]
  simp only [View.ld_unit_zero (S := S4000x1) hz, View.ld_unit_zero (S := S1x100) hz, View.ld_unit_zero (S := S4000x100) hz,
    View.ld_unit_zero (S := S100x100) hz, View.ld_unit_zero (S := S100x3) hz, View.ld_unit_zero (S := S1x3) hz]
  funext y
  obtain ⟨p, o, rfl⟩ : ∃ (p : Fin 4000) (o : Fin 3), y = ix2 p o := ⟨y 0, y 1, eq_ix2 y⟩
  rw [View.read_apply]
  refine (point_value m c t p o).trans (congrArg (result m c) (funext fun a => Fin.ext ?_))
  match a with
  | ⟨0, _⟩ => show 4000 * t.val + p.val = win0_11.index t 0 * 4000 + 1 * p.val; rw [h0]; omega
  | ⟨1, _⟩ => show o.val = win0_11.index t 1 * 3 + 1 * o.val; rw [h1]; omega

/-! ## The 125 blocks cover the result -/

/-- A result index lies in point t's block when each coordinate lies in the block's range on its axis. -/
theorem mem_blk (t : Fin cfg0.N) (i : S500000x3.Idx) :
    i ∈ ((cfg0.win 11).blk t).view.set ↔ ∀ a : Fin 2, win0_11.index t a * S4000x3.size a ≤ (i a).val
      ∧ (i a).val < win0_11.index t a * S4000x3.size a + S4000x3.size a := by
  show i ∈ ((View.whole main_v36).slice (win0_11.rect t)).set ↔ _
  rw [View.set_slice_whole, Rect.mem_set_unit]
  exact Iff.rfl

/-- Row r of the result lies in the block of point ⌊r / 4000⌋. -/
theorem covered (i : S500000x3.Idx) :
    ∃ t : Fin cfg0.N, (cfg0.win 11).flush t = true ∧ i ∈ ((cfg0.win 11).blk t).view.set := by
  have hi0 : (i 0).val < 500000 := (i 0).isLt
  have hi1 : (i 1).val < 3 := (i 1).isLt
  obtain ⟨t, ht⟩ : ∃ t : Fin cfg0.N, t.val = (i 0).val / 4000 :=
    ⟨⟨(i 0).val / 4000, Nat.lt_of_lt_of_eq (by omega) (show 125 = cfg0.N from N_0.symm)⟩, rfl⟩
  obtain ⟨⟨h0, h1⟩, -⟩ := where_blocks t
  refine ⟨t, flush0_11 t, ?_⟩
  rw [mem_blk]
  intro a
  match a with
  | ⟨0, _⟩ =>
    show win0_11.index t 0 * 4000 ≤ (i 0).val ∧ (i 0).val < win0_11.index t 0 * 4000 + 4000
    rw [h0, ht]; omega
  | ⟨1, _⟩ =>
    show win0_11.index t 1 * 3 ≤ (i 1).val ∧ (i 1).val < win0_11.index t 1 * 3 + 3
    rw [h1]; omega

/-- After the run the result array holds the decoder's function of the arguments. -/
theorem final (c : Dev nD) : (dats m 0 c).arrAt 11 cfg0.N = result m c :=
  (dats m 0 c).arrAt_eq_of_cover 11 (result m c) (fun t _ => flushed_eq m c t) covered

/-- The kernel's run: it terminates with the result array at the decoder's function, the arguments unchanged. -/
theorem run : θ_run defs (onTc (τ := τ) (main (F := Ideal))) ⟨m, fun _ => 0, ρ⟩ fun r => ∀ c : Dev nD,
      r.2.mem ((c : Thread nD τ).loc main_v36) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.Hand

end
-- ==== Proof.RefValue.lean ====
/-
  The reference, stage by stage, is the decoder's function of its arrays.

  For edge e the reference joins the source's memory row, the destination's memory row and the encoded time gap into
  one row of 300 numbers and takes a single product with the first layer's 300 × 100 weights. Position k of the joined
  row is the source row at k for k < 100, the destination row at k − 100 for 100 ≤ k < 200 and the encoding at
  k − 200 beyond; so that product is the sum of the three band products (a sum over 300 split into its hundreds).
  The bias, the maximum with zero, the second product and its bias are read entry by entry.
-/
import proofs.«150806_j1279900254339_1_alg».proof.Proof.Gen.ReferenceIdeal.Read
import proofs.«150806_j1279900254339_1_alg».proof.Proof.DecoderSpec
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.ReferenceIdeal.Hand

open Cert.ReferenceIdeal Cert.ReferenceIdeal.Gen Cert.ReferenceIdeal.Read Cert.Decoder

variable (x0 x1 : (⟨S500000, .i32⟩ : BufTy).Contents (Elt Ideal)) (x2 : (⟨S500000, .f32⟩ : BufTy).Contents (Elt Ideal))
  (x4 : (⟨S100000x100, .f32⟩ : BufTy).Contents (Elt Ideal)) (x5 : (⟨S100000, .f32⟩ : BufTy).Contents (Elt Ideal))
  (x6 x7 : (⟨S100, .f32⟩ : BufTy).Contents (Elt Ideal)) (x8 : (⟨S300x100, .f32⟩ : BufTy).Contents (Elt Ideal))
  (x9 : (⟨S100, .f32⟩ : BufTy).Contents (Elt Ideal)) (x10 : (⟨S100x3, .f32⟩ : BufTy).Contents (Elt Ideal))
  (x11 : (⟨S3, .f32⟩ : BufTy).Contents (Elt Ideal))

/-- The encoded time gap at edge e and frequency k: cos (gap e · w k + β k). -/
theorem enc_at (e : Fin 500000) (k : Fin 100) :
    val_main_v16 (F := Ideal) x0 x2 x5 x6 x7 (ix2 e k) = timeEnc (val_main_v7 (F := Ideal) x0 x2 x5) x6 x7 e k := by
  have i1 : idx_main_v8 (idx_main_v10 (ix2 e k)) = ix1 e := funext fun a => Fin.ext (by match a with | ⟨0, _⟩ => rfl)
  have i2 : idx_main_v9 (idx_main_v11 (ix2 e k)) = ix1 k := funext fun a => Fin.ext (by match a with | ⟨0, _⟩ => rfl)
  have i3 : idx_main_v13 (idx_main_v14 (ix2 e k)) = ix1 k := funext fun a => Fin.ext (by match a with | ⟨0, _⟩ => rfl)
  rw [val_main_v16_apply, val_main_v15_apply, val_main_v12_apply, val_main_v10_apply, val_main_v8_apply,
    val_main_v11_apply, val_main_v9_apply, val_main_v14_apply, val_main_v13_apply, i1, i2, i3]
  rfl

/-- Position k of edge e's joined row. -/
theorem joined_at (e : Fin 500000) (k : Fin 300) :
    val_main_v31 (F := Ideal) x0 x1 x2 x4 x5 x6 x7 (ix2 e k)
      = joined (val_main_v23 (F := Ideal) x0 x4) (val_main_v30 (F := Ideal) x1 x4) (val_main_v7 (F := Ideal) x0 x2 x5) x6 x7 e k := by
  unfold val_main_v31 joined
  have hi : ∀ (q : Fin 100) (b : Fin S500000x100.rank), b.cast (rfl : S500000x100.rank = S500000x300.rank) ≠ (1 : Fin 2) →
      ((ix2 e q : S500000x100.Idx) b).val = ((ix2 e k : S500000x300.Idx) (b.cast rfl)).val := fun q b =>
    match b with
    | ⟨0, _⟩ => fun _ => rfl
    | ⟨1, _⟩ => fun h => absurd rfl h
  have piece := concatenate_apply_piece (t := S500000x300) (1 : Fin 2)
    [⟨S500000x100, val_main_v23 (F := Ideal) x0 x4⟩, ⟨S500000x100, val_main_v30 (F := Ideal) x1 x4⟩,
      ⟨S500000x100, val_main_v16 (F := Ideal) x0 x2 x5 x6 x7⟩]
    concatenates_S500000x100_S500000x100_S500000x100_S500000x300_d1 (ix2 e k)
  by_cases h1 : k.val < 100
  · rw [dif_pos h1]
    exact piece 0 (by show 0 < 3; omega) S500000x100 _ rfl rfl 0 rfl (ix2 e ⟨k.val, h1⟩) (hi _) (by show 0 + k.val = k.val; omega)
  · rw [dif_neg h1]
    by_cases h2 : k.val < 200
    · rw [dif_pos h2]
      exact piece 1 (by show 1 < 3; omega) S500000x100 _ rfl rfl 100 rfl (ix2 e ⟨k.val - 100, by omega⟩) (hi _)
        (by show 100 + (k.val - 100) = k.val; omega)
    · rw [dif_neg h2]
      have hk : k.val < 300 := k.isLt
      exact (piece 2 (by show 2 < 3; omega) S500000x100 _ rfl rfl 200 rfl (ix2 e ⟨k.val - 200, by omega⟩) (hi _)
        (by show 200 + (k.val - 200) = k.val; omega)).trans (enc_at x0 x2 x5 x6 x7 e _)

/-- Hidden unit j of edge e. -/
theorem hidden_at (e : Fin 500000) (j : Fin 100) :
    val_main_v36 (F := Ideal) x0 x1 x2 x4 x5 x6 x7 x8 x9 (ix2 e j)
      = hidden (val_main_v23 (F := Ideal) x0 x4) (val_main_v30 (F := Ideal) x1 x4) (val_main_v7 (F := Ideal) x0 x2 x5) x6 x7 x8 x9 e j := by
  have il : ∀ k : Fin 300, lidx_main_v32 (ix2 e j) k = ix2 e k := fun k => funext fun a => Fin.ext (by
    match a with | ⟨0, _⟩ => rfl | ⟨1, _⟩ => rfl)
  have ir : ∀ k : Fin 300, ridx_main_v32 (ix2 e j) k = ix2 k j := fun k => funext fun a => Fin.ext (by
    match a with | ⟨0, _⟩ => rfl | ⟨1, _⟩ => rfl)
  have ib : idx_main_v33 (idx_main_v34 (ix2 e j)) = ix1 j := funext fun a => Fin.ext (by match a with | ⟨0, _⟩ => rfl)
  rw [val_main_v36_apply, val_main_v35_apply, val_main_v32_apply, val_main_v34_apply, val_main_v33_apply,
    val_main_call0_v0_apply, val_main_call0_cst_apply, ib]
  simp only [il, ir, joined_at]
  rw [joined_dot]
  show max (_ + x9 (ix1 j)) (Ideal.ofBits .f32 0x00000000#32) = _
  rw [Ideal.ofBits_zero_f32]
  rfl

/-- The reference's result is the decoder's function of the gathered rows, the time gap and the parameters. -/
theorem result_eq :
    val_main_v40 (F := Ideal) x0 x1 x2 x4 x5 x6 x7 x8 x9 x10 x11
      = decode (val_main_v23 (F := Ideal) x0 x4) (val_main_v30 (F := Ideal) x1 x4) (val_main_v7 (F := Ideal) x0 x2 x5) x6 x7 x8 x9 x10 x11 := by
  funext i
  obtain ⟨e, o, rfl⟩ : ∃ (e : Fin 500000) (o : Fin 3), i = ix2 e o := ⟨i 0, i 1, eq_ix2 i⟩
  have il : ∀ k : Fin 100, lidx_main_v37 (ix2 e o) k = ix2 e k := fun k => funext fun a => Fin.ext (by
    match a with | ⟨0, _⟩ => rfl | ⟨1, _⟩ => rfl)
  have ir : ∀ k : Fin 100, ridx_main_v37 (ix2 e o) k = ix2 k o := fun k => funext fun a => Fin.ext (by
    match a with | ⟨0, _⟩ => rfl | ⟨1, _⟩ => rfl)
  have ib : idx_main_v38 (idx_main_v39 (ix2 e o)) = ix1 o := funext fun a => Fin.ext (by match a with | ⟨0, _⟩ => rfl)
  rw [val_main_v40_apply, val_main_v37_apply, val_main_v39_apply, val_main_v38_apply, ib]
  simp only [il, ir, hidden_at]
  rfl

end Cert.ReferenceIdeal.Hand

end
-- ==== Proof.lean ====
/-
  A temporal-graph decoder over 500000 edges: for each edge the memory rows of its two endpoints and the cosine
  encoding of the time since its source was last updated pass through a two-layer perceptron with a maximum with
  zero between the layers, giving three numbers per edge.

  The reference joins the three 100-wide feature rows into one row of 300 and multiplies it by the 300 × 100
  first-layer weights. The kernel, which works on blocks of 4000 edges, never joins them: it multiplies each
  feature row by its own band of 100 rows of the weights and adds the three products. On the extended reals a
  sum over 300 indices is the sum of its three hundreds (addition is commutative and associative there, and no
  finiteness is needed), so the two hidden layers agree entry by entry, and with them the outputs. The memory
  gathers and the time gap are the same operations of the same arguments in both programs and are carried as
  they stand. Changes of float format are the identity on the extended reals, and a product into a zero
  accumulator is the plain sum over the contracted index.

  The three frames are the generated ones (the reference's is its generated run with the result dropped); no
  operation was rewritten by the idealization, so there is nothing to preserve.
-/
import proofs.«150806_j1279900254339_1_alg».proof.Defs
import proofs.«150806_j1279900254339_1_alg».proof.Proof.Gen.Kernel
import proofs.«150806_j1279900254339_1_alg».proof.Proof.Gen.Kernel.Skeleton
import proofs.«150806_j1279900254339_1_alg».proof.Proof.Gen.Kernel.Launch
import proofs.«150806_j1279900254339_1_alg».proof.Proof.Gen.Kernel.Points
import proofs.«150806_j1279900254339_1_alg».proof.Proof.Gen.Kernel.Frame
import proofs.«150806_j1279900254339_1_alg».proof.Proof.Gen.KernelIdeal
import proofs.«150806_j1279900254339_1_alg».proof.Proof.Gen.KernelIdeal.Skeleton
import proofs.«150806_j1279900254339_1_alg».proof.Proof.Gen.KernelIdeal.Launch
import proofs.«150806_j1279900254339_1_alg».proof.Proof.Gen.KernelIdeal.Points
import proofs.«150806_j1279900254339_1_alg».proof.Proof.Gen.KernelIdeal.Frame
import proofs.«150806_j1279900254339_1_alg».proof.Proof.Gen.ReferenceIdeal
import proofs.«150806_j1279900254339_1_alg».proof.Proof.Gen.Pre_finite_inputs
import proofs.«150806_j1279900254339_1_alg».proof.Proof.Gen.KernelIdeal.Value
import proofs.«150806_j1279900254339_1_alg».proof.Proof.Gen.ReferenceIdeal.Run
import proofs.«150806_j1279900254339_1_alg».proof.Proof.Gen.ReferenceIdeal.Read
import proofs.«150806_j1279900254339_1_alg».proof.Proof.KernelValue
import proofs.«150806_j1279900254339_1_alg».proof.Proof.RefValue
import Idealize.ShloMosaic.Adequacy
import Idealize.ShloMosaic.Init

noncomputable section

namespace Cert.Proof

open Idealize.ShloMosaic Idealize.SL.Sem

/-! ## The gathered arrays are the same terms in both programs -/

/-- The reference's source-row gather is the kernel program's. -/
theorem rows_src (x : (⟨Cert.ReferenceIdeal.S500000, .i32⟩ : BufTy).Contents (Elt Ideal))
    (M : (⟨Cert.ReferenceIdeal.S100000x100, .f32⟩ : BufTy).Contents (Elt Ideal)) :
    Cert.ReferenceIdeal.Read.val_main_v23 (F := Ideal) x M = Cert.KernelIdeal.Hand.rowsAt x M := rfl

/-- The reference's destination-row gather is the kernel program's. -/
theorem rows_dst (x : (⟨Cert.ReferenceIdeal.S500000, .i32⟩ : BufTy).Contents (Elt Ideal))
    (M : (⟨Cert.ReferenceIdeal.S100000x100, .f32⟩ : BufTy).Contents (Elt Ideal)) :
    Cert.ReferenceIdeal.Read.val_main_v30 (F := Ideal) x M = Cert.KernelIdeal.Hand.rowsAt x M := rfl

/-- The reference's time gap is the kernel program's. -/
theorem gap_same (x : (⟨Cert.ReferenceIdeal.S500000, .i32⟩ : BufTy).Contents (Elt Ideal))
    (t : (⟨Cert.ReferenceIdeal.S500000, .f32⟩ : BufTy).Contents (Elt Ideal))
    (u : (⟨Cert.ReferenceIdeal.S100000, .f32⟩ : BufTy).Contents (Elt Ideal)) :
    Cert.ReferenceIdeal.Read.val_main_v7 (F := Ideal) x t u = Cert.KernelIdeal.Hand.gapOf x t u := rfl

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the decoder's function of the arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, a4, a5, a6, a7, a8, a9, a10, a11⟩ := hagree c
  rw [Cert.ReferenceIdeal.Read.val_main_v40_eq, Cert.ReferenceIdeal.Hand.result_eq, rows_src, rows_dst, gap_same,
    a0, a1, a2, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
